-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_v43 : IVec S1x800000 32 := (extractStridedSlice S1x800000 ![0, 0] · slices_S2x800000_S1x800000_0_0) main_arg1
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg1 : IVec S2x800000 32) (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_v33

def fn {F : FTy → Type} [FloatOps F] (main_arg0 : FVec F S50000x64 .f32) (main_arg1 : IVec S2x800000 32) (main_arg2 : FVec F S800000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S5000x64 : Shape := ⟨2, ![5000, 64]⟩
abbrev S1x64 : Shape := ⟨2, ![1, 64]⟩

abbrev nBuf : Space → Nat
  | .hbm => 48
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x64, .f32⟩
  | .hbm, ⟨32, _⟩ => ⟨S800000x64, .i1⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_call1_cst : Ref sig .tc := ⟨.hbm, 37, rfl⟩
abbrev main_call1_v0 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S800000x64, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S64x64, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S64x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.TakeRange.lean ====
/-
  A row lookup whose indices are in range.

  `take x idx` along the rows of a table with `N` rows first wraps a negative index by `N`, then looks the row up,
  and finally keeps the looked-up row only where the wrapped index lies in `[0, N - 1]`, filling the other rows with a
  fixed value. When every index already lies in `[0, N - 1]` the wrap changes nothing, the range test holds at every
  position, and the fill is never chosen: the result is the plain lookup. The facts below say this of the words and of
  the arrays of words the lookup is computed with.
-/
import Idealize.ShloMosaic.PureOps
import Idealize.ShloMosaic.PureOps.Reduce
import Idealize.ShloMosaic.Lib.Affine
import Idealize.ShloMosaic.Lib.ValueIdx
import Idealize.ShloMosaic.Lib.Pipeline.Value

noncomputable section

namespace Cert.Take

open Idealize.ShloMosaic Idealize.ShloMosaic.ValueIdx

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi (1#1) (1#1) = 1#1 := by decide
    rw [e]
    exact foldl_andi_ones f l fun n hn => h n (List.mem_cons_of_mem _ hn)

/-- A reduction by `and`, from an initial value that is 1, of an array of words that are all 1, is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

/-- A non-negative word is not below zero: the wrap of negative indices leaves it alone. -/
theorem not_slt_zero {w : BitVec 32} (h : 0 ≤ w.toInt) : ¬IntOp.cmpi .slt w 0#32 = 1#1 := by
  rw [IntOp.cmpi_slt]
  have : (0#32 : BitVec 32).toInt = 0 := by decide
  omega

/-- The wrap of negative indices, on indices none of which is negative, is the identity. -/
theorem wrap_eq_self {n : ℕ} (s : IVec ⟨1, ![n]⟩ 32) (h0 : (⟨0, ![]⟩ : Shape).BroadcastsInDim ⟨1, ![n]⟩ ![]) (N : BitVec 32)
    (hs : ∀ e, 0 ≤ (s e).toInt) :
    select (cmpi .slt s (broadcastInDim ⟨1, ![n]⟩ ![] h0 (constantI ⟨0, ![]⟩ 32 0#32)))
      (addi s (broadcastInDim ⟨1, ![n]⟩ ![] h0 (constantI ⟨0, ![]⟩ 32 N))) s = s := by
  funext e
  show Scalar.select (IntOp.cmpi .slt (s e) 0#32) _ (s e) = s e
  exact if_neg (not_slt_zero (hs e))

/-- The range test of a lookup into `hi + 1` rows — the index column at least 0 and at most `hi`, reduced by `and` along
    the column's one entry — holds at every position when every index is in range. -/
theorem inRange_all {n : ℕ} (s : IVec ⟨1, ![n]⟩ 32) (hi : BitVec 32)
    (hcol : (⟨1, ![n]⟩ : Shape).BroadcastsInDim ⟨2, ![n, 1]⟩ ![0])
    (h0 : (⟨0, ![]⟩ : Shape).BroadcastsInDim ⟨2, ![n, 1]⟩ ![])
    (h1 : (⟨1, ![1]⟩ : Shape).BroadcastsInDim ⟨2, ![1, 1]⟩ ![1])
    (h2 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hs : ∀ e, 0 ≤ (s e).toInt ∧ (s e).toInt ≤ hi.toInt) (e : (⟨1, ![n]⟩ : Shape).Idx) :
    Host.reduce IntOp.andi
      (andi (cmpi .sge (broadcastInDim ⟨2, ![n, 1]⟩ ![0] hcol s) (broadcastInDim ⟨2, ![n, 1]⟩ ![] h0 (constantI ⟨0, ![]⟩ 32 0#32)))
        (cmpi .sle (broadcastInDim ⟨2, ![n, 1]⟩ ![0] hcol s)
          (broadcastInDim ⟨2, ![n, 1]⟩ ![0, 1] h2 (broadcastInDim ⟨2, ![1, 1]⟩ ![1] h1 (constantI ⟨1, ![1]⟩ 32 hi)))))
      (constantI ⟨0, ![]⟩ 1 1#1) hred hu e = 1#1 := by
  refine reduce_andi_of_all _ _ hred hu (fun _ => rfl) (fun i => ?_) e
  show IntOp.andi (IntOp.cmpi .sge (broadcastInDim ⟨2, ![n, 1]⟩ ![0] hcol s i) 0#32)
    (IntOp.cmpi .sle (broadcastInDim ⟨2, ![n, 1]⟩ ![0] hcol s i) hi) = 1#1
  obtain ⟨a, b⟩ := hs (fun _ => _)
  rw [IntOp.andi_eq_one, IntOp.cmpi_sge, IntOp.cmpi_sle]
  have z : (0#32 : BitVec 32).toInt = 0 := by decide
  exact ⟨by rw [z]; exact a, b⟩

/-- A choice between two arrays under a per-row mask that is 1 on every row takes the first array. -/
theorem select_of_all {α : Type} {n C : ℕ} (mask : IVec ⟨1, ![n]⟩ 1) (hm : ∀ e, mask e = 1#1)
    (hb : (⟨1, ![n]⟩ : Shape).BroadcastsInDim ⟨2, ![n, C]⟩ ![0]) (g d : (⟨2, ![n, C]⟩ : Shape).Idx → α) :
    select (broadcastInDim ⟨2, ![n, C]⟩ ![0] hb mask) g d = g := by
  funext i
  show Scalar.select (broadcastInDim ⟨2, ![n, C]⟩ ![0] hb mask i) (g i) (d i) = g i
  have e : broadcastInDim ⟨2, ![n, C]⟩ ![0] hb mask i = 1#1 := hm _
  rw [e]
  exact if_pos rfl

end Cert.Take

end
-- ==== Proof.KernelHost.lean ====
/-
  What the host computes before the kernel is launched.

  Before the one kernel call the host program looks up each edge's source row in the node table (`take`: wrap, look up,
  keep where in range), adds the edge's attribute row, takes the positive part, and sums the resulting message rows
  into their destination nodes (a row scatter-add into zeros); it also transposes the three weight matrices. The arrays
  the kernel's windows read are named here as functions of the program's arguments, and, where every source node is a
  row number of the table, the `take` is the plain row lookup.
-/
import proofs.«405680_j38173669327254_2_alg».proof.Proof.Gen.KernelIdeal.Frame
import proofs.«405680_j38173669327254_2_alg».proof.Proof.TakeRange
import Idealize.ShloMosaic.Lib.StableHlo.Run

noncomputable section

namespace Cert.KernelIdeal.HostSide

open Cert.KernelIdeal Cert.KernelIdeal.Facts₀ Idealize.ShloMosaic Idealize.ShloMosaic.TcCoe
  Idealize.SL.Sem Idealize.ShloMosaic.StableHlo

/-- Row 0 of the edge table: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge table: each edge's destination node. -/
def dstOf (ei : IVec S2x800000 32) : IVec S800000 32 :=
  shapeCast S800000 (extractStridedSlice S1x800000 ![1, 0] ei slices_S2x800000_S1x800000_1_0) shapeCasts_S1x800000_S800000

/-- A negative index counts from the end: it is wrapped by the table's 50000 rows. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- A vector of indices as the column of start indices a row lookup or a row scatter takes. -/
def col (s : IVec S800000 32) : IVec S800000x1 32 := broadcastInDim S800000x1 ![0] bcast_S800000_S800000x1_0 s

/-- Which indices lie in `[0, 49999]`. -/
def inRange (s : IVec S800000 32) : IVec S800000 1 :=
  Host.reduce IntOp.andi
    (andi (cmpi .sge (col s) (broadcastInDim S800000x1 ![] bcast_S_S800000x1 (constantI S_ 32 0#32)))
      (cmpi .sle (col s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of the node table at the given indices. -/
def lookup (x : FVec Ideal S50000x64 .f32) (s : IVec S800000 32) : FVec Ideal S800000x64 .f32 :=
  Host.gather gather_S50000x64_S800000x1_S800000x64_1_0_n_n_0_1_164 x (col s)

/-- The looked-up rows where the index is in range, a fixed fill elsewhere. -/
def taken (x : FVec Ideal S50000x64 .f32) (s : IVec S800000 32) : FVec Ideal S800000x64 .f32 :=
  select (broadcastInDim S800000x64 ![0] bcast_S800000_S800000x64_0 (inRange s)) (lookup x s)
    (broadcastInDim S800000x64 ![] bcast_S_S800000x64 (constant (F := Ideal) S_ .f32 0x7FC00000#32))

/-- The message rows — positive part of source row plus edge attributes — summed into their destination nodes. -/
def msgSum (rows : FVec Ideal S800000x64 .f32) (d : IVec S800000 32) (ea : FVec Ideal S800000x64 .f32) :
    FVec Ideal S50000x64 .f32 :=
  Host.scatterAdd scatter_S50000x64_S800000x1_S800000x64_1_0_0_1
    (broadcastInDim S50000x64 ![] bcast_S_S50000x64 (constant (F := Ideal) S_ .f32 0x00000000#32)) (col d)
    (maximumf (addf rows ea) (broadcastInDim S800000x64 ![] bcast_S_S800000x64 (constant (F := Ideal) S_ .f32 0x00000000#32)))

/-- Where every index is a row number, the `take` is the plain lookup: no row is filled. -/
theorem taken_wrapped (x : FVec Ideal S50000x64 .f32) (s : IVec S800000 32)
    (hs : ∀ e, 0 ≤ (s e).toInt ∧ (s e).toInt < 50000) : taken x (wrapped s) = lookup x (wrapped s) := by
  have hw : wrapped s = s := Cert.Take.wrap_eq_self s bcast_S_S800000 50000#32 fun e => (hs e).1
  rw [hw]
  have f : (49999#32 : BitVec 32).toInt = 49999 := by decide
  exact Cert.Take.select_of_all (inRange s)
    (Cert.Take.inRange_all s 49999#32 bcast_S800000_S800000x1_0 bcast_S_S800000x1 bcast_S1_S1x1_1 bcast_S1x1_S800000x1_0_1
      reducesTo_S800000x1_S800000_d1 h_S_ fun e => ⟨(hs e).1, by rw [f]; have := (hs e).2; omega⟩)
    bcast_S800000_S800000x64_0 _ _

/-! ## The host operations, one stretch at a time

The host operations before the kernel call come in five stretches. What a buffer holds after a stretch is read off the
stretch's operations from what the buffers held before it; a stretch leaves the buffers it does not write as they were. -/

/-- Two stretches one after the other. -/
theorem after_append (l₁ l₂ : List (HloOp τ sig (Elt Ideal))) (F : Valuation τ sig (Elt Ideal)) :
    after (l₁ ++ l₂) F = after l₂ (after l₁ F) := by
  induction l₁ generalizing F with
  | nil => rfl
  | cons op l ih => simp only [List.cons_append, after_cons, ih]

variable (F : Valuation τ sig (Elt Ideal))

/-- The first stretch slices the edge table into its two rows. -/
theorem first_v1 : after Gen.hostOps0 F (Proc.devRef .tc main_v1) = srcOf (F (Proc.devRef .tc main_arg1)) := by
  unfold srcOf
  after_results
  rfl
theorem first_v3 : after Gen.hostOps0 F (Proc.devRef .tc main_v3) = dstOf (F (Proc.devRef .tc main_arg1)) := by
  unfold dstOf
  after_results
  rfl
theorem first_arg0 : after Gen.hostOps0 F (Proc.devRef .tc main_arg0) = F (Proc.devRef .tc main_arg0) := by
  after_results
theorem first_arg2 : after Gen.hostOps0 F (Proc.devRef .tc main_arg2) = F (Proc.devRef .tc main_arg2) := by
  after_results

/-- A value carried into a buffer of its own type and read back is the value. -/
theorem ofBuf_toBuf {T : BufTy} (x : TRef sig T) (v : T.Contents (Elt Ideal)) : x.ofBuf (x.toBuf v) = v := by
  obtain ⟨r, h, h2, h3⟩ := x
  subst h
  rfl

theorem ofBuf_arg0 (h1 h2 h3) (v : main_arg0.ty.Contents (Elt Ideal)) :
    (TRef.of (T := ⟨S50000x64, .f32⟩) main_arg0 h1 h2 h3).ofBuf v = v := rfl
theorem ofBuf_v1 (h1 h2 h3) (v : main_v1.ty.Contents (Elt Ideal)) :
    (TRef.of (T := ⟨S800000, .i32⟩) main_v1 h1 h2 h3).ofBuf v = v := rfl
theorem toBuf_v4 (h1 h2 h3) (v : (⟨S800000x64, .f32⟩ : BufTy).Contents (Elt Ideal)) :
    (TRef.of (T := ⟨S800000x64, .f32⟩) main_v4 h1 h2 h3).toBuf v = v := rfl
theorem ofBuf_v5 (h1 h2 h3) (v : main_v5.ty.Contents (Elt Ideal)) :
    (TRef.of (T := ⟨S800000x64, .f32⟩) main_v5 h1 h2 h3).ofBuf v = v := rfl
theorem toBuf_v6 (h1 h2 h3) (v : (⟨S800000x64, .f32⟩ : BufTy).Contents (Elt Ideal)) :
    (TRef.of (T := ⟨S800000x64, .f32⟩) main_v6 h1 h2 h3).toBuf v = v := rfl

set_option maxHeartbeats 2000000 in
/-- The second stretch is the `take` of the node table at the source nodes. -/
theorem second_v4 : after Gen.hostOps0_1 F (Proc.devRef .tc main_v4)
    = taken (F (Proc.devRef .tc main_arg0)) (wrapped (F (Proc.devRef .tc main_v1))) := by
  unfold taken lookup inRange col wrapped
  after_results_simp
  simp only [ofBuf_toBuf, ofBuf_arg0, ofBuf_v1, toBuf_v4]
set_option maxHeartbeats 2000000 in
theorem second_v3 : after Gen.hostOps0_1 F (Proc.devRef .tc main_v3) = F (Proc.devRef .tc main_v3) := by
  after_results_simp
set_option maxHeartbeats 2000000 in
theorem second_arg2 : after Gen.hostOps0_1 F (Proc.devRef .tc main_arg2) = F (Proc.devRef .tc main_arg2) := by
  after_results_simp

/-- The third stretch adds the edge attributes. -/
theorem third_v5 : after Gen.hostOps0_2 F (Proc.devRef .tc main_v5)
    = (addf (F (Proc.devRef .tc main_v4) : FVec Ideal S800000x64 .f32) (F (Proc.devRef .tc main_arg2)) :
        FVec Ideal S800000x64 .f32) := by
  after_results
theorem third_v3 : after Gen.hostOps0_2 F (Proc.devRef .tc main_v3) = F (Proc.devRef .tc main_v3) := by
  after_results

/-- The fourth stretch takes the positive part. -/
theorem fourth_v6 : after Gen.hostOps0_3 F (Proc.devRef .tc main_v6)
    = maximumf (F (Proc.devRef .tc main_v5))
        (broadcastInDim S800000x64 ![] bcast_S_S800000x64 (constant (F := Ideal) S_ .f32 0x00000000#32)) := by
  after_results_simp
  simp only [ofBuf_toBuf, ofBuf_v5, toBuf_v6]
theorem fourth_v3 : after Gen.hostOps0_3 F (Proc.devRef .tc main_v3) = F (Proc.devRef .tc main_v3) := by
  after_results_simp

/-- The fifth stretch sums the messages into their destination nodes. -/
theorem fifth_v9 : after Gen.hostOps0_4 F (Proc.devRef .tc main_v9)
    = Host.scatterAdd scatter_S50000x64_S800000x1_S800000x64_1_0_0_1
        (broadcastInDim S50000x64 ![] bcast_S_S50000x64 (constant (F := Ideal) S_ .f32 0x00000000#32))
        (col (F (Proc.devRef .tc main_v3))) (F (Proc.devRef .tc main_v6)) := by
  unfold col
  after_results

/-- A weight matrix transposed. -/
def tr (W : FVec Ideal S64x64 .f32) : FVec Ideal S64x64 .f32 := transpose S64x64 [1, 0] W transposes_S64x64_S64x64_1_0

/-- The fifth stretch also transposes the three weight matrices, and writes none of them. -/
theorem fifth_v10 : after Gen.hostOps0_4 F (Proc.devRef .tc main_v10) = tr (F (Proc.devRef .tc main_arg3)) := by
  unfold tr
  after_results
theorem fifth_v11 : after Gen.hostOps0_4 F (Proc.devRef .tc main_v11) = tr (F (Proc.devRef .tc main_arg5)) := by
  unfold tr
  after_results
theorem fifth_v12 : after Gen.hostOps0_4 F (Proc.devRef .tc main_v12) = tr (F (Proc.devRef .tc main_arg7)) := by
  unfold tr
  after_results
theorem fifth_arg3 : after Gen.hostOps0_4 F (Proc.devRef .tc main_arg3) = F (Proc.devRef .tc main_arg3) := by
  after_results
theorem fifth_arg5 : after Gen.hostOps0_4 F (Proc.devRef .tc main_arg5) = F (Proc.devRef .tc main_arg5) := by
  after_results
theorem fifth_arg7 : after Gen.hostOps0_4 F (Proc.devRef .tc main_arg7) = F (Proc.devRef .tc main_arg7) := by
  after_results

variable (m : (ℓ : Loc nD τ sig) → Buf (Elt Ideal) ℓ)

/-- The region finds its buffers as the five stretches leave them. -/
theorem V_stretches (c : Dev nD) (b : Ref sig .tc) :
    Gen.V m c b = after Gen.hostOps0_4 (after Gen.hostOps0_3 (after Gen.hostOps0_2 (after Gen.hostOps0_1
      (after Gen.hostOps0 (fun b => m (c, b)))))) (Proc.devRef .tc b) := by
  show after (List.flatten [Gen.hostOps0, Gen.hostOps0_1, Gen.hostOps0_2, Gen.hostOps0_3, Gen.hostOps0_4]) (fun b => m (c, b))
    (Proc.devRef .tc b) = _
  rw [List.flatten_cons, List.flatten_cons, List.flatten_cons, List.flatten_cons, List.flatten_cons, List.flatten_nil,
    List.append_nil, after_append, after_append, after_append, after_append]

/-- The kernel's second operand: the summed messages. -/
theorem V_main_v9 (c : Dev nD) :
    (Gen.V m c main_v9 : S50000x64.Idx → EReal)
      = msgSum (taken (m ((c : Thread nD τ).loc main_arg0)) (wrapped (srcOf (m ((c : Thread nD τ).loc main_arg1)))))
          (dstOf (m ((c : Thread nD τ).loc main_arg1))) (m ((c : Thread nD τ).loc main_arg2)) := by
  rw [V_stretches, fifth_v9, fourth_v6, fourth_v3, third_v5, third_v3, second_v4, second_v3, second_arg2, first_v1, first_v3,
    first_arg0, first_arg2]
  rfl

/-- The kernel's weight operands: the program's weight matrices transposed. -/
theorem V_main_v10 (c : Dev nD) : (Gen.V m c main_v10 : S64x64.Idx → EReal) = tr (m ((c : Thread nD τ).loc main_arg3)) := by
  have h : Gen.V m c main_arg3 = _ := V_stretches m c main_arg3
  rw [fifth_arg3] at h
  rw [V_stretches, fifth_v10, ← h, Gen.V_main_arg3]
theorem V_main_v11 (c : Dev nD) : (Gen.V m c main_v11 : S64x64.Idx → EReal) = tr (m ((c : Thread nD τ).loc main_arg5)) := by
  have h : Gen.V m c main_arg5 = _ := V_stretches m c main_arg5
  rw [fifth_arg5] at h
  rw [V_stretches, fifth_v11, ← h, Gen.V_main_arg5]
theorem V_main_v12 (c : Dev nD) : (Gen.V m c main_v12 : S64x64.Idx → EReal) = tr (m ((c : Thread nD τ).loc main_arg7)) := by
  have h : Gen.V m c main_arg7 = _ := V_stretches m c main_arg7
  rw [fifth_arg7] at h
  rw [V_stretches, fifth_v12, ← h, Gen.V_main_arg7]

end Cert.KernelIdeal.HostSide

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«405680_j38173669327254_2_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Mlp.lean ====
/-
  The node update of a graph layer, as one function of whole arrays.

  A node's new feature row is computed from its own row `x` and the row `a` its incoming messages sum to: first the
  combination `one * x + a`, then three dense layers — a row times a `64 × 64` matrix plus a bias row, the first two
  followed by the positive part. Every row is computed by itself, so the update of an `[M, 64]` array is the update
  of its rows, whatever `M` is: a block of rows of the array is updated to the same block of the array's update.
-/
import Idealize.ShloMosaic.PureOps.Ideal
import Idealize.ShloMosaic.Lib.ValueIdx
import Idealize.ShloMosaic.Lib.Pipeline.Value
import proofs.«405680_j38173669327254_2_alg».proof.Proof.LibRowOps

noncomputable section

namespace Cert.Mlp

open Idealize.ShloMosaic Idealize.ShloMosaic.ValueIdx Cert.Lib

/-- A row plus a bias row (an array of shape `[1, K]`). -/
def biasRow {K : ℕ} (x : Fin K → EReal) (B : (⟨2, ![1, K]⟩ : Shape).Idx → EReal) : Fin K → EReal :=
  fun k => x k + B (ix2 (0 : Fin 1) k)

/-- Every row of an `[M, K]` array plus the bias row. -/
def biasArr {M K : ℕ} (A : (⟨2, ![M, K]⟩ : Shape).Idx → EReal) (B : (⟨2, ![1, K]⟩ : Shape).Idx → EReal) :
    (⟨2, ![M, K]⟩ : Shape).Idx → EReal :=
  fun i => biasRow (fun k => A (ix2 (i 0) k)) B (i 1)

/-- A length-`K` vector as a `[1, K]` row. -/
def rowOf {K : ℕ} (b : (⟨1, ![K]⟩ : Shape).Idx → EReal) : (⟨2, ![1, K]⟩ : Shape).Idx → EReal :=
  fun i => b (ix1 (i 1))

/-- The word of `1.0` and of `0.0`, read as the numbers they are. -/
abbrev one : EReal := Ideal.ofBits .f32 0x3F800000#32
abbrev zero : EReal := Ideal.ofBits .f32 0x00000000#32

/-- A node's own row scaled by `one`, plus its aggregated messages. -/
def combine {s : Shape} (X A : s.Idx → EReal) : s.Idx → EReal := fun i => one * X i + A i

/-- The three dense layers on one row. -/
def mlpRow (h : Fin 64 → EReal) (W1 : (⟨2, ![64, 64]⟩ : Shape).Idx → EReal) (B1 : (⟨2, ![1, 64]⟩ : Shape).Idx → EReal)
    (W2 : (⟨2, ![64, 64]⟩ : Shape).Idx → EReal) (B2 : (⟨2, ![1, 64]⟩ : Shape).Idx → EReal)
    (W3 : (⟨2, ![64, 64]⟩ : Shape).Idx → EReal) (B3 : (⟨2, ![1, 64]⟩ : Shape).Idx → EReal) : Fin 64 → EReal :=
  biasRow (projRow (reluRow (projRow (reluRow (projRow h W1) B1 zero) W2) B2 zero) W3) B3

/-- The three dense layers on every row of an `[M, 64]` array. -/
def mlpArr {M : ℕ} (H : (⟨2, ![M, 64]⟩ : Shape).Idx → EReal) (W1 : (⟨2, ![64, 64]⟩ : Shape).Idx → EReal)
    (B1 : (⟨2, ![1, 64]⟩ : Shape).Idx → EReal) (W2 : (⟨2, ![64, 64]⟩ : Shape).Idx → EReal)
    (B2 : (⟨2, ![1, 64]⟩ : Shape).Idx → EReal) (W3 : (⟨2, ![64, 64]⟩ : Shape).Idx → EReal)
    (B3 : (⟨2, ![1, 64]⟩ : Shape).Idx → EReal) : (⟨2, ![M, 64]⟩ : Shape).Idx → EReal :=
  biasArr (projArr (reluArr (projArr (reluArr (projArr H W1) B1 zero) W2) B2 zero) W3) B3

/-- Entry `(r, j)` of the layers' result depends on row `r` of the input only. -/
theorem mlpArr_apply {M : ℕ} (H : (⟨2, ![M, 64]⟩ : Shape).Idx → EReal) (W1 : (⟨2, ![64, 64]⟩ : Shape).Idx → EReal)
    (B1 : (⟨2, ![1, 64]⟩ : Shape).Idx → EReal) (W2 : (⟨2, ![64, 64]⟩ : Shape).Idx → EReal)
    (B2 : (⟨2, ![1, 64]⟩ : Shape).Idx → EReal) (W3 : (⟨2, ![64, 64]⟩ : Shape).Idx → EReal)
    (B3 : (⟨2, ![1, 64]⟩ : Shape).Idx → EReal) (r : Fin M) (j : Fin 64) :
    mlpArr H W1 B1 W2 B2 W3 B3 (ix2 r j) = mlpRow (fun k => H (ix2 r k)) W1 B1 W2 B2 W3 B3 j := rfl

/-- The whole update: combine, then the layers. -/
def update {M : ℕ} (X A : (⟨2, ![M, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 64]⟩ : Shape).Idx → EReal)
    (b3 : (⟨1, ![64]⟩ : Shape).Idx → EReal) : (⟨2, ![M, 64]⟩ : Shape).Idx → EReal :=
  mlpArr (combine X A) W1 (rowOf b1) W2 (rowOf b2) W3 (rowOf b3)

/-- The update at `(r, j)`: the layers on the combination of row `r` of `X` and row `r` of `A`. -/
theorem update_apply {M : ℕ} (X A : (⟨2, ![M, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 64]⟩ : Shape).Idx → EReal)
    (b3 : (⟨1, ![64]⟩ : Shape).Idx → EReal) (r : Fin M) (j : Fin 64) :
    update X A W1 b1 W2 b2 W3 b3 (ix2 r j)
      = mlpRow (fun k => one * X (ix2 r k) + A (ix2 r k)) W1 (rowOf b1) W2 (rowOf b2) W3 (rowOf b3) j := rfl

/-- ROWS ARE UPDATED ONE BY ONE: if row `r` of a block of rows is row `r'` of the whole array — of the nodes' own rows and
    of their summed messages alike — and the weights and biases are the same, then entry `(r, q)` of the block's update
    is entry `(r', q)` of the array's. -/
theorem update_block {Mb M : ℕ} (xb ab : (⟨2, ![Mb, 64]⟩ : Shape).Idx → EReal) (X A : (⟨2, ![M, 64]⟩ : Shape).Idx → EReal)
    (w1 W1 w2 W2 w3 W3 : (⟨2, ![64, 64]⟩ : Shape).Idx → EReal) (b1 B1 b2 B2 b3 B3 : (⟨1, ![64]⟩ : Shape).Idx → EReal)
    (r : Fin Mb) (r' : Fin M) (q q' : Fin 64) (hq : q = q')
    (hx : ∀ k, xb (ix2 r k) = X (ix2 r' k)) (ha : ∀ k, ab (ix2 r k) = A (ix2 r' k))
    (hw1 : w1 = W1) (hb1 : b1 = B1) (hw2 : w2 = W2) (hb2 : b2 = B2) (hw3 : w3 = W3) (hb3 : b3 = B3) :
    update xb ab w1 b1 w2 b2 w3 b3 (ix2 r q) = update X A W1 B1 W2 B2 W3 B3 (ix2 r' q') := by
  subst hq hw1 hb1 hw2 hb2 hw3 hb3
  rw [update_apply, update_apply]
  have e : (fun k => one * xb (ix2 r k) + ab (ix2 r k)) = fun k => one * X (ix2 r' k) + A (ix2 r' k) :=
    funext fun k => by rw [hx, ha]
  rw [e]

/-- A vector viewed as a row by a shape cast is `rowOf` of it. -/
theorem shapeCast_row {K : ℕ} (b : (⟨1, ![K]⟩ : Shape).Idx → EReal) (h : (⟨1, ![K]⟩ : Shape).ShapeCasts ⟨2, ![1, K]⟩) :
    shapeCast ⟨2, ![1, K]⟩ b h = rowOf b := by
  funext i
  refine shapeCast_apply b h i (ix1 (i 1)) ?_
  rw [Shape.rowMajor_val_two, Shape.rowMajor_val_one]
  have h0 : (i 0).val < 1 := (i 0).isLt
  show (i 1).val = (i 0).val * K + (i 1).val
  have : (i 0).val = 0 := by omega
  rw [this]; omega

/-- A computed block plus a bias row broadcast down its rows, as a whole-block function. -/
theorem addBias_row_eq {M N : ℕ} (y : FVec Ideal ⟨2, ![M, N]⟩ .f32) (B : FVec Ideal ⟨2, ![1, N]⟩ .f32)
    (h3 : (⟨2, ![1, N]⟩ : Shape).Broadcasts ⟨2, ![M, N]⟩) :
    addf y (broadcastTo ⟨2, ![M, N]⟩ B h3) = biasArr y B := by
  funext i
  obtain ⟨r, j, rfl⟩ : ∃ (r : Fin M) (j : Fin N), i = ix2 r j := ⟨i 0, i 1, eq_ix2 i⟩
  rw [addf_apply, broadcastTo_row_apply]
  rfl

/-- The same followed by the positive part against the splat `z`. -/
theorem addBiasRelu_row_eq {M N : ℕ} (y : FVec Ideal ⟨2, ![M, N]⟩ .f32) (B : FVec Ideal ⟨2, ![1, N]⟩ .f32)
    (h3 : (⟨2, ![1, N]⟩ : Shape).Broadcasts ⟨2, ![M, N]⟩) (z : Ideal .f32) :
    maximumf (addf y (broadcastTo ⟨2, ![M, N]⟩ B h3)) (broadcast ⟨2, ![M, N]⟩ z) = reluArr y B z := by
  funext i
  obtain ⟨r, j, rfl⟩ : ∃ (r : Fin M) (j : Fin N), i = ix2 r j := ⟨i 0, i 1, eq_ix2 i⟩
  rw [maximumf_apply, addf_apply, broadcast_apply, broadcastTo_row_apply]
  rfl

/-- THE KERNEL BODY'S SPELLING of the update of a block of `M` rows: the combination, then three times a matrix product
    into the zero accumulator plus the bias vector viewed as a row and broadcast down the block, the first two capped
    below by the zero splat. -/
theorem kernel_update_eq {M : ℕ} (x a : FVec Ideal ⟨2, ![M, 64]⟩ .f32) (w1 w2 w3 : FVec Ideal ⟨2, ![64, 64]⟩ .f32)
    (b1 b2 b3 : FVec Ideal ⟨1, ![64]⟩ .f32) (hx : (⟨2, ![M, 64]⟩ : Shape).ShapeCasts ⟨2, ![M, 64]⟩)
    (hw : (⟨2, ![64, 64]⟩ : Shape).ShapeCasts ⟨2, ![64, 64]⟩) (hb : (⟨1, ![64]⟩ : Shape).ShapeCasts ⟨2, ![1, 64]⟩)
    (hbc : (⟨2, ![1, 64]⟩ : Shape).Broadcasts ⟨2, ![M, 64]⟩) :
    addf (FloatOps.matmul (DotDims.plain M 64 64) none
        (maximumf (addf (FloatOps.matmul (DotDims.plain M 64 64) none
            (maximumf (addf (FloatOps.matmul (DotDims.plain M 64 64) none
                (addf (mulf (broadcast ⟨2, ![M, 64]⟩ (FloatOps.ofBits (F := Ideal) .f32 0x3F800000#32)) x) (shapeCast ⟨2, ![M, 64]⟩ a hx))
                (shapeCast ⟨2, ![64, 64]⟩ w1 hw) (constant ⟨2, ![M, 64]⟩ .f32 0x00000000#32))
              (broadcastTo ⟨2, ![M, 64]⟩ (shapeCast ⟨2, ![1, 64]⟩ b1 hb) hbc))
              (broadcast ⟨2, ![M, 64]⟩ (FloatOps.ofBits (F := Ideal) .f32 0x00000000#32)))
            (shapeCast ⟨2, ![64, 64]⟩ w2 hw) (constant ⟨2, ![M, 64]⟩ .f32 0x00000000#32))
          (broadcastTo ⟨2, ![M, 64]⟩ (shapeCast ⟨2, ![1, 64]⟩ b2 hb) hbc))
          (broadcast ⟨2, ![M, 64]⟩ (FloatOps.ofBits (F := Ideal) .f32 0x00000000#32)))
        (shapeCast ⟨2, ![64, 64]⟩ w3 hw) (constant ⟨2, ![M, 64]⟩ .f32 0x00000000#32))
      (broadcastTo ⟨2, ![M, 64]⟩ (shapeCast ⟨2, ![1, 64]⟩ b3 hb) hbc)
    = update x a w1 b1 w2 b2 w3 b3 := by
  rw [shapeCast_row b1 hb, shapeCast_row b2 hb, shapeCast_row b3 hb]
  simp only [shapeCast_self]
  rw [kernel_matmul_eq, addBiasRelu_row_eq, kernel_matmul_eq, addBiasRelu_row_eq, kernel_matmul_eq, addBias_row_eq]
  rfl

/-- The host's bias add: a length-`K` bias broadcast to a row, then down the rows. -/
theorem host_addBias_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1]) :
    addf A (broadcastInDim ⟨2, ![M, K]⟩ ![0, 1] h1 (broadcastInDim ⟨2, ![1, K]⟩ ![1] h2 b)) = biasArr A (rowOf b) := by
  funext i
  obtain ⟨r, k, rfl⟩ : ∃ (r : Fin M) (k : Fin K), i = ix2 r k := ⟨i 0, i 1, eq_ix2 i⟩
  rw [addf_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  rw [e1]
  rfl

/-- THE HOST'S SPELLING of the update of the whole `[M, 64]` array: the same steps with `dot_general`, the bias vector
    broadcast to a row and then down the rows, and the positive part against the broadcast zero word. -/
theorem host_update_eq {M : ℕ} (x a : FVec Ideal ⟨2, ![M, 64]⟩ .f32) (w1 w2 w3 : FVec Ideal ⟨2, ![64, 64]⟩ .f32)
    (b1 b2 b3 : FVec Ideal ⟨1, ![64]⟩ .f32)
    (h0 : (⟨0, ![]⟩ : Shape).BroadcastsInDim ⟨2, ![M, 64]⟩ ![])
    (h1 : (⟨2, ![1, 64]⟩ : Shape).BroadcastsInDim ⟨2, ![M, 64]⟩ ![0, 1])
    (h2 : (⟨1, ![64]⟩ : Shape).BroadcastsInDim ⟨2, ![1, 64]⟩ ![1]) :
    addf (Host.dotGeneral (DotDims.plain M 64 64) none
        (maximumf (addf (Host.dotGeneral (DotDims.plain M 64 64) none
            (maximumf (addf (Host.dotGeneral (DotDims.plain M 64 64) none
                (addf (mulf (broadcastInDim ⟨2, ![M, 64]⟩ ![] h0 (constant (F := Ideal) ⟨0, ![]⟩ .f32 0x3F800000#32)) x) a) w1)
              (broadcastInDim ⟨2, ![M, 64]⟩ ![0, 1] h1 (broadcastInDim ⟨2, ![1, 64]⟩ ![1] h2 b1)))
              (broadcastInDim ⟨2, ![M, 64]⟩ ![] h0 (constant (F := Ideal) ⟨0, ![]⟩ .f32 0x00000000#32)))
            w2)
          (broadcastInDim ⟨2, ![M, 64]⟩ ![0, 1] h1 (broadcastInDim ⟨2, ![1, 64]⟩ ![1] h2 b2)))
          (broadcastInDim ⟨2, ![M, 64]⟩ ![] h0 (constant (F := Ideal) ⟨0, ![]⟩ .f32 0x00000000#32)))
        w3)
      (broadcastInDim ⟨2, ![M, 64]⟩ ![0, 1] h1 (broadcastInDim ⟨2, ![1, 64]⟩ ![1] h2 b3))
    = update x a w1 b1 w2 b2 w3 b3 := by
  have hc : (⟨1, ![64]⟩ : Shape).ShapeCasts ⟨2, ![1, 64]⟩ := by decide
  rw [host_dot_eq, host_biasRelu_eq _ _ h1 h2 h0 hc, host_dot_eq, host_biasRelu_eq _ _ h1 h2 h0 hc, host_dot_eq, host_addBias_eq,
    shapeCast_row b1 hc, shapeCast_row b2 hc]
  rfl

end Cert.Mlp

end
-- ==== Proof.KernelValue.lean ====
/-
  What the kernel leaves in its output array.

  The kernel runs over ten grid points; point `t` reads rows `5000 t … 5000 t + 4999` of the node table and of the summed
  messages, the three transposed weight matrices and the three bias vectors whole, and writes the same rows of the
  output. Its body is the node update of the block it reads, and the update acts on every row by itself, so what point
  `t` writes is block `t` of the update of the whole arrays. The ten blocks tile the output array: after the run it
  holds the update of the whole arrays.
-/
import proofs.«405680_j38173669327254_2_alg».proof.Proof.Gen.KernelIdeal.Value
import proofs.«405680_j38173669327254_2_alg».proof.Proof.Mlp

set_option maxRecDepth 16384

noncomputable section

namespace Cert.KernelIdeal.Update

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The body's arithmetic is the node update of the blocks it loads. -/
theorem payload_eq (x0 a0 : Vec Ideal S5000x64 .f32) (w1 : Vec Ideal S64x64 .f32) (b1 : Vec Ideal S64 .f32)
    (w2 : Vec Ideal S64x64 .f32) (b2 : Vec Ideal S64 .f32) (w3 : Vec Ideal S64x64 .f32) (b3 : Vec Ideal S64 .f32) :
    k0_pay1 (F := Ideal) x0 a0 w1 b1 w2 b2 w3 b3 = Cert.Mlp.update x0 a0 w1 b1 w2 b2 w3 b3 :=
  Cert.Mlp.kernel_update_eq x0 a0 w1 w2 w3 b1 b2 b3 Facts₀.shapeCasts_S5000x64_S5000x64 Facts₀.shapeCasts_S64x64_S64x64
    Facts₀.shapeCasts_S64_S1x64 Facts₀.broadcasts_S1x64_S5000x64

/-- The update of the whole arrays the kernel's eight input windows stage, as the region finds them. -/
abbrev updated (c : Dev nD) : S50000x64.Idx → EReal :=
  Cert.Mlp.update (M := 50000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7))

/-- The printed index maps, decided over the ten points: the two row-blocked inputs move with the output, whose block
    index is the point's number along the rows and 0 along the columns; every other input is one whole block. -/
theorem idx_facts : ∀ t : Fin cfg0.N, win0_0.index t (0 : Fin 2) = win0_8.index t (0 : Fin 2)
    ∧ win0_0.index t (1 : Fin 2) = 0
    ∧ win0_1.index t (0 : Fin 2) = win0_8.index t (0 : Fin 2)
    ∧ win0_1.index t (1 : Fin 2) = 0
    ∧ win0_8.index t (0 : Fin 2) = t.val
    ∧ win0_8.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

theorem row0 (t : Fin cfg0.N) : win0_0.index t (0 : Fin 2) = win0_8.index t (0 : Fin 2) := (idx_facts t).1
theorem col0 (t : Fin cfg0.N) : win0_0.index t (1 : Fin 2) = 0 := (idx_facts t).2.1
theorem row1 (t : Fin cfg0.N) : win0_1.index t (0 : Fin 2) = win0_8.index t (0 : Fin 2) := (idx_facts t).2.2.1
theorem col1 (t : Fin cfg0.N) : win0_1.index t (1 : Fin 2) = 0 := (idx_facts t).2.2.2.1
theorem row8 (t : Fin cfg0.N) : win0_8.index t (0 : Fin 2) = t.val := (idx_facts t).2.2.2.2.1
theorem col8 (t : Fin cfg0.N) : win0_8.index t (1 : Fin 2) = 0 := (idx_facts t).2.2.2.2.2.1
theorem row2 (t : Fin cfg0.N) : win0_2.index t (0 : Fin 2) = 0 := (idx_facts t).2.2.2.2.2.2.1
theorem col2 (t : Fin cfg0.N) : win0_2.index t (1 : Fin 2) = 0 := (idx_facts t).2.2.2.2.2.2.2.1
theorem row3 (t : Fin cfg0.N) : win0_3.index t (0 : Fin 1) = 0 := (idx_facts t).2.2.2.2.2.2.2.2.1
theorem row4 (t : Fin cfg0.N) : win0_4.index t (0 : Fin 2) = 0 := (idx_facts t).2.2.2.2.2.2.2.2.2.1
theorem col4 (t : Fin cfg0.N) : win0_4.index t (1 : Fin 2) = 0 := (idx_facts t).2.2.2.2.2.2.2.2.2.2.1
theorem row5 (t : Fin cfg0.N) : win0_5.index t (0 : Fin 1) = 0 := (idx_facts t).2.2.2.2.2.2.2.2.2.2.2.1
theorem row6 (t : Fin cfg0.N) : win0_6.index t (0 : Fin 2) = 0 := (idx_facts t).2.2.2.2.2.2.2.2.2.2.2.2.1
theorem col6 (t : Fin cfg0.N) : win0_6.index t (1 : Fin 2) = 0 := (idx_facts t).2.2.2.2.2.2.2.2.2.2.2.2.2.1
theorem row7 (t : Fin cfg0.N) : win0_7.index t (0 : Fin 1) = 0 := (idx_facts t).2.2.2.2.2.2.2.2.2.2.2.2.2.2

/-- A coordinate inside a block whose block index is 0 is the coordinate in the array. -/
theorem zero_block (n s v : ℕ) (h : n = 0) : n * s + 1 * v = v := by subst h; omega

set_option maxHeartbeats 1600000 in
/-- A BLOCK OF ROWS IS UPDATED TO THE SAME BLOCK OF THE UPDATE: for any arrays, the update of what point `t`'s input
    windows read of them is what point `t`'s output window reads of the arrays' update. -/
theorem block_rows (X A : S50000x64.Idx → EReal) (W1 : S64x64.Idx → EReal) (b1 : S64.Idx → EReal) (W2 : S64x64.Idx → EReal)
    (b2 : S64.Idx → EReal) (W3 : S64x64.Idx → EReal) (b3 : S64.Idx → EReal) (t : Fin cfg0.N) :
    (fun j : S5000x64.Idx => Cert.Mlp.update (M := 5000) (fun y => X (((cfg0.win 0).blk t).view.emb y))
        (fun y => A (((cfg0.win 1).blk t).view.emb y)) (fun y => W1 (((cfg0.win 2).blk t).view.emb y))
        (fun y => b1 (((cfg0.win 3).blk t).view.emb y)) (fun y => W2 (((cfg0.win 4).blk t).view.emb y))
        (fun y => b2 (((cfg0.win 5).blk t).view.emb y)) (fun y => W3 (((cfg0.win 6).blk t).view.emb y))
        (fun y => b3 (((cfg0.win 7).blk t).view.emb y)) j)
      = fun j : S5000x64.Idx => Cert.Mlp.update X A W1 b1 W2 b2 W3 b3 (((cfg0.win 8).blk t).view.emb j) := by
  funext j
  obtain ⟨r, q, rfl⟩ : ∃ (r : Fin 5000) (q : Fin 64), j = ix2 r q := ⟨j 0, j 1, eq_ix2 j⟩
  have hi := eq_ix2 (((cfg0.win 8).blk t).view.emb (ix2 r q))
  rw [hi]
  clear hi
  refine Cert.Mlp.update_block _ _ X A _ W1 _ W2 _ W3 _ b1 _ b2 _ b3
    r ((((cfg0.win 8).blk t).view.emb (ix2 r q)) 0) q ((((cfg0.win 8).blk t).view.emb (ix2 r q)) 1) ?_ ?_ ?_ ?_ ?_ ?_ ?_ ?_ ?_
  · exact Fin.ext (zero_block (win0_8.index t (1 : Fin 2)) 64 q.val (col8 t)).symm
  · intro k
    refine congrArg X (funext fun a => Fin.ext ?_)
    match a with
    | ⟨0, _⟩ => exact congrArg (· * 5000 + 1 * r.val) (row0 t)
    | ⟨1, _⟩ => exact zero_block (win0_0.index t (1 : Fin 2)) 64 k.val (col0 t)
  · intro k
    refine congrArg A (funext fun a => Fin.ext ?_)
    match a with
    | ⟨0, _⟩ => exact congrArg (· * 5000 + 1 * r.val) (row1 t)
    | ⟨1, _⟩ => exact zero_block (win0_1.index t (1 : Fin 2)) 64 k.val (col1 t)
  · funext y
    refine congrArg W1 (funext fun a => Fin.ext ?_)
    match a with
    | ⟨0, _⟩ => exact zero_block (win0_2.index t (0 : Fin 2)) 64 (y 0).val (row2 t)
    | ⟨1, _⟩ => exact zero_block (win0_2.index t (1 : Fin 2)) 64 (y 1).val (col2 t)
  · funext y
    refine congrArg b1 (funext fun a => Fin.ext ?_)
    match a with
    | ⟨0, _⟩ => exact zero_block (win0_3.index t (0 : Fin 1)) 64 (y 0).val (row3 t)
  · funext y
    refine congrArg W2 (funext fun a => Fin.ext ?_)
    match a with
    | ⟨0, _⟩ => exact zero_block (win0_4.index t (0 : Fin 2)) 64 (y 0).val (row4 t)
    | ⟨1, _⟩ => exact zero_block (win0_4.index t (1 : Fin 2)) 64 (y 1).val (col4 t)
  · funext y
    refine congrArg b2 (funext fun a => Fin.ext ?_)
    match a with
    | ⟨0, _⟩ => exact zero_block (win0_5.index t (0 : Fin 1)) 64 (y 0).val (row5 t)
  · funext y
    refine congrArg W3 (funext fun a => Fin.ext ?_)
    match a with
    | ⟨0, _⟩ => exact zero_block (win0_6.index t (0 : Fin 2)) 64 (y 0).val (row6 t)
    | ⟨1, _⟩ => exact zero_block (win0_6.index t (1 : Fin 2)) 64 (y 1).val (col6 t)
  · funext y
    refine congrArg b3 (funext fun a => Fin.ext ?_)
    match a with
    | ⟨0, _⟩ => exact zero_block (win0_7.index t (0 : Fin 1)) 64 (y 0).val (row7 t)

/-- The same of what the windows read of any contents of their arrays. -/
theorem block_update (c : Dev nD) (X0 : Buf (Elt Ideal) ((c : Thread nD τ).loc (Pipeline.arrRef spec0 0)))
    (X1 : Buf (Elt Ideal) ((c : Thread nD τ).loc (Pipeline.arrRef spec0 1)))
    (X2 : Buf (Elt Ideal) ((c : Thread nD τ).loc (Pipeline.arrRef spec0 2)))
    (X3 : Buf (Elt Ideal) ((c : Thread nD τ).loc (Pipeline.arrRef spec0 3)))
    (X4 : Buf (Elt Ideal) ((c : Thread nD τ).loc (Pipeline.arrRef spec0 4)))
    (X5 : Buf (Elt Ideal) ((c : Thread nD τ).loc (Pipeline.arrRef spec0 5)))
    (X6 : Buf (Elt Ideal) ((c : Thread nD τ).loc (Pipeline.arrRef spec0 6)))
    (X7 : Buf (Elt Ideal) ((c : Thread nD τ).loc (Pipeline.arrRef spec0 7))) (t : Fin cfg0.N) :
    (cfg0.win 8).cut (grid0.coords t)
        (Cert.Mlp.update (M := 5000) (((cfg0.win 0).blk t).view.read (Elt Ideal) X0) (((cfg0.win 1).blk t).view.read (Elt Ideal) X1)
          (((cfg0.win 2).blk t).view.read (Elt Ideal) X2) (((cfg0.win 3).blk t).view.read (Elt Ideal) X3)
          (((cfg0.win 4).blk t).view.read (Elt Ideal) X4) (((cfg0.win 5).blk t).view.read (Elt Ideal) X5)
          (((cfg0.win 6).blk t).view.read (Elt Ideal) X6) (((cfg0.win 7).blk t).view.read (Elt Ideal) X7))
      = ((cfg0.win 8).blk t).view.read (Elt Ideal) (Cert.Mlp.update (M := 50000) X0 X1 X2 X3 X4 X5 X6 X7) :=
  block_rows X0 X1 X2 X3 X4 X5 X6 X7 t

set_option maxHeartbeats 1600000 in
/-- WHAT POINT `t` WRITES BACK is block `t` of the update of the whole arrays. -/
theorem flushed_eq (c : Dev nD) (t : Fin cfg0.N) :
    (dats m 0 c).flushed 8 t = ((cfg0.win 8).blk t).view.read (Elt Ideal) (updated m c) := by
  rw [Value.flushed8]
  unfold out0_8
  rw [View.canon_unit_zero zero2]
  simp only [View.ld_unit_zero (S := S5000x64) zero2, View.ld_unit_zero (S := S64x64) zero2, View.ld_unit_zero (S := S64) zero1]
  rw [payload_eq]
  unfold iblk
  exact block_update c (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) t

/-- An index of the output array is in point `t`'s block iff each coordinate is in the block's range on its axis. -/
theorem mem_blk (t : Fin cfg0.N) (i : S50000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v13).slice (win0_8.rect t)).set ↔ _
  rw [View.set_slice_whole, Rect.mem_set_unit]
  exact Iff.rfl

/-- Row `i` of the output lies in the block of point `i / 5000`: the ten blocks cover the array. -/
theorem covered (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  have ht : (i 0).val / 5000 < cfg0.N := by show (i 0).val / 5000 < 10; omega
  refine ⟨⟨(i 0).val / 5000, ht⟩, flush0_8 _, ?_⟩
  have e80 := row8 ⟨(i 0).val / 5000, ht⟩
  have e81 := col8 ⟨(i 0).val / 5000, ht⟩
  rw [mem_blk]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e80]
    show (i 0).val / 5000 * 5000 ≤ (i 0).val ∧ (i 0).val < (i 0).val / 5000 * 5000 + 5000
    omega
  | ⟨1, _⟩ =>
    show win0_8.index ⟨(i 0).val / 5000, ht⟩ (1 : Fin 2) * 64 ≤ (i 1).val
      ∧ (i 1).val < win0_8.index ⟨(i 0).val / 5000, ht⟩ (1 : Fin 2) * 64 + 64
    rw [e81]
    omega

/-- THE OUTPUT ARRAY after the run is the update of the whole arrays. -/
theorem final (c : Dev nD) : (dats m 0 c).arrAt 8 cfg0.N = updated m c :=
  (dats m 0 c).arrAt_eq_of_cover 8 (updated m c) (fun t _ => flushed_eq m c t) covered

/-- The run, with the output array named: the update of the arrays the region finds, the arguments unchanged. -/
theorem run : θ_run defs (onTc (τ := τ) (main (F := Ideal))) ⟨m, fun _ => 0, ρ⟩ fun r => ∀ c : Dev nD,
      r.2.mem ((c : Thread nD τ).loc main_v13) = updated m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Update

end
-- ==== Proof.RefValue.lean ====
/-
  What the reference computes.

  The reference program is host operations only: it looks up each edge's source row (a negative index wrapped first),
  adds the edge attributes, takes the positive part, sums the message rows into their destination nodes, and applies
  the node update to the whole node table at once. Its result, read off its run, is the update of the node table and
  the summed messages with the three weight matrices transposed.
-/
import proofs.«405680_j38173669327254_2_alg».proof.Proof.Gen.ReferenceIdeal.Run
import proofs.«405680_j38173669327254_2_alg».proof.Proof.Mlp

noncomputable section

namespace Cert.ReferenceIdeal.Update

open Cert.ReferenceIdeal Cert.ReferenceIdeal.Facts₀ Idealize.ShloMosaic Idealize.ShloMosaic.TcCoe Idealize.SL.Sem

/-- The message rows summed into their destination nodes, as the reference spells them. -/
def msgs (x : FVec Ideal S50000x64 .f32) (ei : IVec S2x800000 32) (ea : FVec Ideal S800000x64 .f32) :
    FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![1, 0] ei slices_S2x800000_S1x800000_1_0) shapeCasts_S1x800000_S800000)) (maximumf (addf (Host.gather gather_S50000x64_S800000x1_S800000x64_1_0_n_n_0_1_164 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000)))) ea) (broadcastInDim S800000x64 ![] bcast_S_S800000x64 (constant (F := Ideal) S_ .f32 0x00000000#32)))

/-- A weight matrix transposed. -/
def tr (W : FVec Ideal S64x64 .f32) : FVec Ideal S64x64 .f32 := transpose S64x64 [1, 0] W transposes_S64x64_S64x64_1_0

/-- The reference's run, with its result named: the update of the node table and the summed messages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = Cert.Mlp.update (m ((c.tc : Thread nD τ).loc main_arg0))
            (msgs (m ((c.tc : Thread nD τ).loc main_arg0)) (m ((c.tc : Thread nD τ).loc main_arg1)) (m ((c.tc : Thread nD τ).loc main_arg2)))
            (tr (m ((c.tc : Thread nD τ).loc main_arg3))) (m ((c.tc : Thread nD τ).loc main_arg4))
            (tr (m ((c.tc : Thread nD τ).loc main_arg5))) (m ((c.tc : Thread nD τ).loc main_arg6))
            (tr (m ((c.tc : Thread nD τ).loc main_arg7))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans
      (Cert.Mlp.host_update_eq (M := 50000) _ _ _ _ _ _ _ _ bcast_S_S50000x64 bcast_S1x64_S50000x64_0_1 bcast_S64_S1x64_1), (h c).2⟩)
    (Value.run m ρ)

end Cert.ReferenceIdeal.Update

end
-- ==== Proof.PreRange.lean ====
/-
  What the precondition says of the edges' source nodes.

  The precondition's last conjunct is `all ((src ≥ 0) & (src < 50000))` over `src`, row 0 of the edge table: the result
  of a reduction by `and` is 1, so every compared pair holds, and a comparison word that is 1 says its operands, read as
  signed integers, compare so. Hence every source node is a row number of the node table: `0 ≤ src e < 50000`.
-/
import proofs.«405680_j38173669327254_2_alg».proof.Pre_finite_inputs
import proofs.«405680_j38173669327254_2_alg».proof.Proof.Gen.Pre_finite_inputs
import Idealize.ShloMosaic.Lib.Affine
import Idealize.ShloMosaic.Lib.ReduceAll
import Idealize.ShloMosaic.Lib.ValueIdx

noncomputable section

namespace Cert.PreRange

open Idealize.ShloMosaic Idealize.ShloMosaic.ValueIdx Cert.Pre_finite_inputs Cert.Pre_finite_inputs.Facts

/-- Row 0 of the edge table, as a vector: the source node of each edge. -/
def src (ei : IVec S2x800000 32) : IVec S800000 32 :=
  shapeCast S800000 (extractStridedSlice S1x800000 ![0, 0] ei slices_S2x800000_S1x800000_0_0) shapeCasts_S1x800000_S800000

instance : Subsingleton S_.Idx := ⟨fun _ _ => funext fun d => d.elim0⟩

/-- Under the precondition every edge's source node is a row number of the node table. -/
theorem src_bounds {F : FTy → Type} [FloatOps F] (a0 : FVec F S50000x64 .f32) (ei : IVec S2x800000 32) (a2 : FVec F S800000x64 .f32)
    (a3 : FVec F S64x64 .f32) (a4 : FVec F S64 .f32) (a5 : FVec F S64x64 .f32) (a6 : FVec F S64 .f32) (a7 : FVec F S64x64 .f32)
    (a8 : FVec F S64 .f32) (h : fn (F := F) a0 ei a2 a3 a4 a5 a6 a7 a8 = fun _ => 1#1) (e : S800000.Idx) :
    0 ≤ (src ei e).toInt ∧ (src ei e).toInt < 50000 := by
  have h1 := congrFun h ix0
  have h2 : Host.reduce IntOp.andi
      (andi (cmpi .sge (src ei) (broadcastInDim S800000 ![] bcast_S_S800000 (constantI S_ 32 0#32)))
        (cmpi .slt (src ei) (broadcastInDim S800000 ![] bcast_S_S800000 (constantI S_ 32 50000#32))))
      (constantI S_ 1 1#1) reducesTo_S800000_S_d0 h_S_ ix0 = 1#1 := (IntOp.andi_eq_one.1 h1).2
  have h3 := Host.reduce_andi_all _ _ _ _ ix0 h2 e
  have h4 : IntOp.andi (IntOp.cmpi .sge (src ei e) 0#32) (IntOp.cmpi .slt (src ei e) 50000#32) = 1#1 := h3
  rw [IntOp.andi_eq_one, IntOp.cmpi_sge, IntOp.cmpi_slt] at h4
  have z : (0#32 : BitVec 32).toInt = 0 := by decide
  have f : (50000#32 : BitVec 32).toInt = 50000 := by decide
  rw [z, f] at h4
  exact h4

end Cert.PreRange

end
-- ==== Proof.Bridge.lean ====
/-
  The two programs compute the same node update.

  Both programs sum the same message rows into the same destination nodes — the kernel's host part through a `take`
  that fills out-of-range rows, the reference through a plain row lookup — and, under the precondition, every source
  node is a row number of the node table, so no row is filled and the two sums are one array. The weight matrices are
  transposed alike. Hence the array the kernel leaves, the update of what its windows read, is the reference's result.
-/
import proofs.«405680_j38173669327254_2_alg».proof.Proof.KernelHost
import proofs.«405680_j38173669327254_2_alg».proof.Proof.KernelValue
import proofs.«405680_j38173669327254_2_alg».proof.Proof.RefValue
import proofs.«405680_j38173669327254_2_alg».proof.Proof.PreRange

noncomputable section

namespace Cert.Bridge

open Idealize.ShloMosaic Idealize.ShloMosaic.TcCoe Idealize.SL.Sem
open Cert.KernelIdeal (nD τ sig main_arg0 main_arg1 main_arg2 main_arg3 main_arg4 main_arg5 main_arg6 main_arg7 main_arg8)

/-- With every source node a row number, the kernel's summed messages are the reference's. -/
theorem msgs_eq (x : FVec Ideal Cert.KernelIdeal.S50000x64 .f32) (ei : IVec Cert.KernelIdeal.S2x800000 32)
    (ea : FVec Ideal Cert.KernelIdeal.S800000x64 .f32)
    (hs : ∀ e, 0 ≤ (Cert.KernelIdeal.HostSide.srcOf ei e).toInt ∧ (Cert.KernelIdeal.HostSide.srcOf ei e).toInt < 50000) :
    Cert.KernelIdeal.HostSide.msgSum
        (Cert.KernelIdeal.HostSide.taken x (Cert.KernelIdeal.HostSide.wrapped (Cert.KernelIdeal.HostSide.srcOf ei)))
        (Cert.KernelIdeal.HostSide.dstOf ei) ea
      = Cert.ReferenceIdeal.Update.msgs x ei ea := by
  rw [Cert.KernelIdeal.HostSide.taken_wrapped x _ hs]
  unfold Cert.KernelIdeal.HostSide.msgSum Cert.KernelIdeal.HostSide.lookup Cert.KernelIdeal.HostSide.col
    Cert.KernelIdeal.HostSide.wrapped Cert.KernelIdeal.HostSide.srcOf Cert.KernelIdeal.HostSide.dstOf
    Cert.ReferenceIdeal.Update.msgs
  rfl

/-- The two programs transpose a weight matrix alike. -/
theorem tr_eq (W : FVec Ideal Cert.KernelIdeal.S64x64 .f32) :
    Cert.KernelIdeal.HostSide.tr W = Cert.ReferenceIdeal.Update.tr W := rfl

/-- THE KERNEL'S OUTPUT ARRAY IS THE REFERENCE'S RESULT of the same arguments, under the precondition. -/
theorem updated_eq (m : (ℓ : Loc nD τ sig) → Buf (Elt Ideal) ℓ) (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    Cert.KernelIdeal.Update.updated m c
      = Cert.Mlp.update (m ((c.tc : Thread nD τ).loc main_arg0))
          (Cert.ReferenceIdeal.Update.msgs (m ((c.tc : Thread nD τ).loc main_arg0)) (m ((c.tc : Thread nD τ).loc main_arg1))
            (m ((c.tc : Thread nD τ).loc main_arg2)))
          (Cert.ReferenceIdeal.Update.tr (m ((c.tc : Thread nD τ).loc main_arg3))) (m ((c.tc : Thread nD τ).loc main_arg4))
          (Cert.ReferenceIdeal.Update.tr (m ((c.tc : Thread nD τ).loc main_arg5))) (m ((c.tc : Thread nD τ).loc main_arg6))
          (Cert.ReferenceIdeal.Update.tr (m ((c.tc : Thread nD τ).loc main_arg7))) (m ((c.tc : Thread nD τ).loc main_arg8)) := by
  show Cert.Mlp.update (Cert.KernelIdeal.Gen.V m c main_arg0) (Cert.KernelIdeal.Gen.V m c Cert.KernelIdeal.main_v9)
    (Cert.KernelIdeal.Gen.V m c Cert.KernelIdeal.main_v10) (Cert.KernelIdeal.Gen.V m c main_arg4)
    (Cert.KernelIdeal.Gen.V m c Cert.KernelIdeal.main_v11) (Cert.KernelIdeal.Gen.V m c main_arg6)
    (Cert.KernelIdeal.Gen.V m c Cert.KernelIdeal.main_v12) (Cert.KernelIdeal.Gen.V m c main_arg8) = _
  rw [Cert.KernelIdeal.Gen.V_main_arg0, Cert.KernelIdeal.HostSide.V_main_v9, Cert.KernelIdeal.HostSide.V_main_v10,
    Cert.KernelIdeal.Gen.V_main_arg4, Cert.KernelIdeal.HostSide.V_main_v11, Cert.KernelIdeal.Gen.V_main_arg6,
    Cert.KernelIdeal.HostSide.V_main_v12, Cert.KernelIdeal.Gen.V_main_arg8,
    msgs_eq _ _ _ (fun e => Cert.PreRange.src_bounds _ _ _ _ _ _ _ _ _ h e), tr_eq, tr_eq, tr_eq]

end Cert.Bridge

end
-- ==== Proof.lean ====
/- The node update of a graph layer with edge features, computed two ways, is one function of the inputs.

   Each node's new feature row is three dense layers (the first two followed by the positive part) of the node's own
   row plus the sum of its incoming messages, a message being the positive part of the source node's row plus the
   edge's attribute row. The kernel program gathers the source rows with a `take` that fills out-of-range rows, sums the
   messages into their destination nodes on the host, transposes the weights, and runs the dense layers in a kernel
   over ten blocks of 5000 rows; the reference does every step on the host over the whole arrays. Where every source
   node is a row number of the node table (the precondition's last conjunct) no row is filled, the summed messages are
   the same array, and, the dense layers acting on each row by itself, the kernel's ten blocks are the blocks of the
   reference's result: the two results are equal as extended reals, entry by entry. No finiteness is used: the sums
   along the contracted axis are the same sums on both sides.

   The frames of the two kernel programs are the generated ones; the reference's frame is its run with the result
   dropped; the idealization rewrote nothing, so it preserves trivially. -/
import proofs.«405680_j38173669327254_2_alg».proof.Defs
import proofs.«405680_j38173669327254_2_alg».proof.Proof.Gen.Kernel
import proofs.«405680_j38173669327254_2_alg».proof.Proof.Gen.Kernel.Skeleton
import proofs.«405680_j38173669327254_2_alg».proof.Proof.Gen.Kernel.Launch
import proofs.«405680_j38173669327254_2_alg».proof.Proof.Gen.Kernel.Points
import proofs.«405680_j38173669327254_2_alg».proof.Proof.Gen.Kernel.Frame
import proofs.«405680_j38173669327254_2_alg».proof.Proof.Gen.KernelIdeal
import proofs.«405680_j38173669327254_2_alg».proof.Proof.Gen.KernelIdeal.Skeleton
import proofs.«405680_j38173669327254_2_alg».proof.Proof.Gen.KernelIdeal.Launch
import proofs.«405680_j38173669327254_2_alg».proof.Proof.Gen.KernelIdeal.Points
import proofs.«405680_j38173669327254_2_alg».proof.Proof.Gen.KernelIdeal.Frame
import proofs.«405680_j38173669327254_2_alg».proof.Proof.Gen.ReferenceIdeal
import proofs.«405680_j38173669327254_2_alg».proof.Proof.Gen.Pre_finite_inputs
import proofs.«405680_j38173669327254_2_alg».proof.Proof.Gen.KernelIdeal.Value
import proofs.«405680_j38173669327254_2_alg».proof.Proof.Gen.ReferenceIdeal.Run
import proofs.«405680_j38173669327254_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the node update of the same node table, summed messages, transposed weights and biases. -/
theorem algebraic : Cert.algebraic_KernelIdeal_ReferenceIdeal := by
  intro m ρ m' ρ' hpre hagree
  refine ⟨fun c => Cert.KernelIdeal.Update.updated m c, Cert.KernelIdeal.Update.run m ρ, ?_⟩
  refine (θ_run Cert.ReferenceIdeal.defs _ _).mono (fun r h c => ⟨(h c).1.trans ?_, (h c).2⟩)
    (Cert.ReferenceIdeal.Update.run m' ρ')
  obtain ⟨a0, a1, a2, a3, a4, a5, a6, a7, a8⟩ := hagree c
  rw [a0, a1, a2, a3, a4, a5, a6, a7, a8]
  exact (Cert.Bridge.updated_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
